-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x7x7x2048 : Shape := ⟨4, ![512, 7, 7, 2048]⟩
abbrev S2048x8192 : Shape := ⟨2, ![2048, 8192]⟩
abbrev S8192 : Shape := ⟨1, ![8192]⟩
abbrev S_ : Shape := ⟨0, ![]⟩

class Facts : Prop where
  bcast_S_S512x7x7x2048 : S_.BroadcastsInDim S512x7x7x2048 (![] : Fin 0 → Fin S512x7x7x2048.rank)
  reducesTo_S512x7x7x2048_S_d0_1_2_3 : S512x7x7x2048.ReducesTo [0, 1, 2, 3] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S512x7x7x2048 .f32) (main_arg1 : FVec F S2048x8192 .f32) (main_arg2 : FVec F S8192 .f32) : IVec S_ 1 :=
  let main_v0 : FVec F S512x7x7x2048 .f32 := Host.absf main_arg0
  let main_cst : FVec F S_ .f32 := constant S_ .f32 0x7F800000#32
  let main_v1 : FVec F S512x7x7x2048 .f32 := broadcastInDim S512x7x7x2048 ![] bcast_S_S512x7x7x2048 main_cst
  let main_v2 : IVec S512x7x7x2048 1 := cmpf .olt main_v0 main_v1
  let main_c : IVec S_ 1 := constantI S_ 1 1#1
  let main_v3 : IVec S_ 1 := (fun x v => Host.reduce IntOp.andi x v reducesTo_S512x7x7x2048_S_d0_1_2_3 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S512x7x7x2048 : Shape := ⟨4, ![512, 7, 7, 2048]⟩
abbrev S2048x8192 : Shape := ⟨2, ![2048, 8192]⟩
abbrev S8192 : Shape := ⟨1, ![8192]⟩
abbrev S512x49x2048 : Shape := ⟨3, ![512, 49, 2048]⟩
abbrev S512x2048 : Shape := ⟨2, ![512, 2048]⟩
abbrev S32x49x2048 : Shape := ⟨3, ![32, 49, 2048]⟩
abbrev S32x2048 : Shape := ⟨2, ![32, 2048]⟩
abbrev S1x8192 : Shape := ⟨2, ![1, 8192]⟩
abbrev S512x8192 : Shape := ⟨2, ![512, 8192]⟩
abbrev S128x2048 : Shape := ⟨2, ![128, 2048]⟩
abbrev S2048x1024 : Shape := ⟨2, ![2048, 1024]⟩
abbrev S1x1024 : Shape := ⟨2, ![1, 1024]⟩
abbrev S128x1024 : Shape := ⟨2, ![128, 1024]⟩

abbrev nBuf : Space → Nat
  | .hbm => 7
  | .vmem => 12
  | .smem => 0
  | _ => 0

abbrev bufTy : (tb : Table) → Fin (tcTables nBuf tb) → BufTy
  | .hbm, ⟨0, _⟩ => ⟨S512x7x7x2048, .f32⟩
  | .hbm, ⟨1, _⟩ => ⟨S2048x8192, .f32⟩
  | .hbm, ⟨2, _⟩ => ⟨S8192, .f32⟩
  | .hbm, ⟨3, _⟩ => ⟨S512x49x2048, .f32⟩
  | .hbm, ⟨4, _⟩ => ⟨S512x2048, .f32⟩
  | .hbm, ⟨5, _⟩ => ⟨S1x8192, .f32⟩
  | .hbm, ⟨6, _⟩ => ⟨S512x8192, .f32⟩
  | .local _ .vmem, ⟨0, _⟩ => ⟨S32x49x2048, .f32⟩
  | .local _ .vmem, ⟨1, _⟩ => ⟨S32x49x2048, .f32⟩
  | .local _ .vmem, ⟨2, _⟩ => ⟨S32x2048, .f32⟩
  | .local _ .vmem, ⟨3, _⟩ => ⟨S32x2048, .f32⟩
  | .local _ .vmem, ⟨4, _⟩ => ⟨S128x2048, .f32⟩
  | .local _ .vmem, ⟨5, _⟩ => ⟨S128x2048, .f32⟩
  | .local _ .vmem, ⟨6, _⟩ => ⟨S2048x1024, .f32⟩
  | .local _ .vmem, ⟨7, _⟩ => ⟨S2048x1024, .f32⟩
  | .local _ .vmem, ⟨8, _⟩ => ⟨S1x1024, .f32⟩
  | .local _ .vmem, ⟨9, _⟩ => ⟨S1x1024, .f32⟩
  | .local _ .vmem, ⟨10, _⟩ => ⟨S128x1024, .f32⟩
  | .local _ .vmem, ⟨11, _⟩ => ⟨S128x1024, .f32⟩
  | _, _ => ⟨S512x7x7x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x49x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S512x7x7x2048_S512x49x2048 : S512x7x7x2048.ShapeCasts S512x49x2048
  inb_S32x49x2048_S32x49x2048_0_0_0 : ∀ a, (![0, 0, 0] : Fin 3 → Nat) a + S32x49x2048.size a ≤ S32x49x2048.size a
  h_S32x49x2048 : 0 < S32x49x2048.numel
  shapeCasts_S32x49x2048_S32x49x2048 : S32x49x2048.ShapeCasts S32x49x2048
  reduces_S32x49x2048_S32x2048 : S32x49x2048.Reduces [1] S32x2048
  inb_S32x2048_S32x2048_0_0 : ∀ a, (![0, 0] : Fin 2 → Nat) a + S32x2048.size a ≤ S32x2048.size a
  h_S32x2048 : 0 < S32x2048.numel
  shapeCasts_S8192_S1x8192 : S8192.ShapeCasts S1x8192
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S128x1024_S128x1024_0_0 : ∀ a, (![0, 0] : Fin 2 → Nat) a + S128x1024.size a ≤ S128x1024.size a
  h_S128x1024 : 0 < S128x1024.numel
  dot_S128x2048_S2048x1024_S128x1024_1_0_0_1_n_n_wf : DotDims.WF S128x2048 S2048x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x49x2048.size a ≤ S512x49x2048.size a
  hwx0_0 : ∀ i : grid0.Coords, EltTy.bits .f32 = 32 ∨ (Rect.block (s := S512x49x2048) S32x49x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x2048.size a ≤ S512x2048.size a
  hwx0_1 : ∀ i : grid0.Coords, EltTy.bits .f32 = 32 ∨ (Rect.block (s := S512x2048) S32x2048.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x2048.size a ≤ S512x2048.size a
  hwx1_0 : ∀ i : grid1.Coords, EltTy.bits .f32 = 32 ∨ (Rect.block (s := S512x2048) S128x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S2048x8192.size a
  hwx1_1 : ∀ i : grid1.Coords, EltTy.bits .f32 = 32 ∨ (Rect.block (s := S2048x8192) S2048x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1024.size a ≤ S512x8192.size a
  hwx1_3 : ∀ i : grid1.Coords, EltTy.bits .f32 = 32 ∨ (Rect.block (s := S512x8192) S128x1024.size (cc1_transform_3 i) (hinb1_3 i)).WholeWords (EltTy.packing .f32)

variable [Facts₀]

def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf

abbrev win0_0 : Pipeline.Window sig grid0 :=
  Pipeline.Window.ofSpec (Memref.whole main_v0) S32x49x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S128x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S128x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512x7x7x2048 : Shape := ⟨4, ![512, 7, 7, 2048]⟩
abbrev S2048x8192 : Shape := ⟨2, ![2048, 8192]⟩
abbrev S8192 : Shape := ⟨1, ![8192]⟩
abbrev S_ : Shape := ⟨0, ![]⟩
abbrev S512x2048 : Shape := ⟨2, ![512, 2048]⟩
abbrev S512x8192 : Shape := ⟨2, ![512, 8192]⟩
abbrev S1x8192 : Shape := ⟨2, ![1, 8192]⟩

abbrev nBuf : Space → Nat
  | .hbm => 12
  | .vmem => 0
  | .smem => 0
  | _ => 0

abbrev bufTy : (tb : Table) → Fin (tcTables nBuf tb) → BufTy
  | .hbm, ⟨0, _⟩ => ⟨S512x7x7x2048, .f32⟩
  | .hbm, ⟨1, _⟩ => ⟨S2048x8192, .f32⟩
  | .hbm, ⟨2, _⟩ => ⟨S8192, .f32⟩
  | .hbm, ⟨3, _⟩ => ⟨S_, .f32⟩
  | .hbm, ⟨4, _⟩ => ⟨S512x2048, .f32⟩
  | .hbm, ⟨5, _⟩ => ⟨S_, .f32⟩
  | .hbm, ⟨6, _⟩ => ⟨S512x2048, .f32⟩
  | .hbm, ⟨7, _⟩ => ⟨S512x2048, .f32⟩
  | .hbm, ⟨8, _⟩ => ⟨S512x8192, .f32⟩
  | .hbm, ⟨9, _⟩ => ⟨S1x8192, .f32⟩
  | .hbm, ⟨10, _⟩ => ⟨S512x8192, .f32⟩
  | .hbm, ⟨11, _⟩ => ⟨S512x8192, .f32⟩
  | _, _ => ⟨S512x7x7x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  reducesTo_S512x7x7x2048_S512x2048_d1_2 : S512x7x7x2048.ReducesTo [1, 2] S512x2048
  h_S_ : 0 < S_.numel
  bcast_S_S512x2048 : S_.BroadcastsInDim S512x2048 (![] : Fin 0 → Fin S512x2048.rank)
  bcast_S8192_S1x8192_1 : S8192.BroadcastsInDim S1x8192 (![1] : Fin 1 → Fin S1x8192.rank)
  bcast_S1x8192_S512x8192_0_1 : S1x8192.BroadcastsInDim S512x8192 (![0, 1] : Fin 2 → Fin S512x8192.rank)
  dot_S512x2048_S2048x8192_S512x8192_1_0_0_1_n_n_wf : DotDims.WF S512x2048 S2048x8192 S512x8192 [1] [0] [0] [1] [] []

variable [Facts₀]

def dot_S512x2048_S2048x8192_S512x8192_1_0_0_1_n_n : DotDims S512x2048 S2048x8192 S512x8192 where
  lhsContracting := [1]
  rhsContracting := [0]
  lhsNonContracting := [0]
  rhsNonContracting := [1]
  lhsBatch := []
  rhsBatch := []
  wf := dot_S512x2048_S2048x8192_S512x8192_1_0_0_1_n_n_wf

class Facts : Prop extends Facts₀ where

variable [Facts]
-- ==== Proof.PoolSpec.lean ====
/-
  The function both programs compute, over the extended reals, stated once over literal shapes.

  For x : [512, 7, 7, 2048], w : [2048, 8192] and b : [8192],
      pooled[n, c] = (Σ_{h, v < 7} x[n, h, v, c]) / 49        and        y[n, k] = Σ_{c < 2048} pooled[n, c] · w[c, k] + b[k].
  The kernel pools the row-major reshape a : [512, 49, 2048] of x along its middle axis, where
  a[n, j, c] = x[n, j / 7, j % 7, c]; a sum over the 49 values of j is the double sum over (h, v) through the
  bijection j = 7 h + v. Only commutativity and associativity of addition are used, so nothing here needs the
  inputs to be finite: the identity holds on all extended reals.
-/
import Idealize.ShloMosaic.PureOps.Ideal.Laws
import Idealize.ShloMosaic.Lib.ValueIdx
import Idealize.ShloMosaic.Lib.Pipeline.Value

noncomputable section

open scoped BigOperators

namespace Cert.PoolFC

open Idealize.ShloMosaic Idealize.ShloMosaic.ValueIdx

/-- The input, its reshape, the pooled matrix, the weight, the bias as a vector and as a one-row matrix, the result. -/
abbrev SX : Shape := ⟨4, ![512, 7, 7, 2048]⟩
abbrev SA : Shape := ⟨3, ![512, 49, 2048]⟩
abbrev SP : Shape := ⟨2, ![512, 2048]⟩
abbrev SW : Shape := ⟨2, ![2048, 8192]⟩
abbrev SB : Shape := ⟨1, ![8192]⟩
abbrev SB2 : Shape := ⟨2, ![1, 8192]⟩
abbrev SY : Shape := ⟨2, ![512, 8192]⟩

/-- The divisor both programs write: the f32 word of 49.0. It is never evaluated; both sides carry the same word. -/
abbrev d49 : EReal := Ideal.ofBits .f32 0x42440000#32

/-! ## The 49 positions of a 7 × 7 window -/

/-- Position j of a row-major 7 × 7 window is (j / 7, j % 7). -/
def hwEquiv : Fin 7 × Fin 7 ≃ Fin 49 where
  toFun p := ⟨7 * p.1.val + p.2.val, by have := p.1.isLt; have := p.2.isLt; omega⟩
  invFun k := (⟨k.val / 7, by have := k.isLt; omega⟩, ⟨k.val % 7, by omega⟩)
  left_inv p := by
    rcases p with ⟨a, b⟩
    refine Prod.ext (Fin.ext ?_) (Fin.ext ?_)
    · show (7 * a.val + b.val) / 7 = a.val
      have := b.isLt; omega
    · show (7 * a.val + b.val) % 7 = b.val
      have := b.isLt; omega
  right_inv k := Fin.ext (by show 7 * (k.val / 7) + k.val % 7 = k.val; omega)

/-- A sum over the 49 flat positions is the sum over the pairs (h, v). -/
theorem sum_flat49 {M : Type*} [AddCommMonoid M] (f : Fin 7 → Fin 7 → M) :
    ∑ k : Fin 49, f ⟨k.val / 7, by have := k.isLt; omega⟩ ⟨k.val % 7, by omega⟩ = ∑ p : Fin 7 × Fin 7, f p.1 p.2 :=
  Equiv.sum_comp hwEquiv.symm (fun p => f p.1 p.2)

/-! ## The specification -/

/-- The mean over the 7 × 7 window at (n, c). -/
def pooledAt (x : SX.Idx → EReal) (n : Fin 512) (c : Fin 2048) : EReal :=
  Ideal.div (∑ p : Fin 7 × Fin 7, x (ix4 n p.1 p.2 c)) d49

/-- The result at (n, k): the pooled row n against column k of the weight, plus the bias at k. -/
def fcAt (x : SX.Idx → EReal) (w : SW.Idx → EReal) (b : SB.Idx → EReal) (n : Fin 512) (k : Fin 8192) : EReal :=
  (∑ c : Fin 2048, pooledAt x n c * w (ix2 c k)) + b (ix1 k)

/-- The whole result array. -/
def fc (x : SX.Idx → EReal) (w : SW.Idx → EReal) (b : SB.Idx → EReal) : SY.Idx → EReal :=
  fun i => fcAt x w b ⟨(i 0).val, idx2_lt0 i⟩ ⟨(i 1).val, idx2_lt1 i⟩

/-! ## The same function in the kernel's two stages -/

/-- Stage one on the reshaped input: the mean along the middle axis of a : [512, 49, 2048]. -/
def poolFlatAt (a : SA.Idx → EReal) (n : Fin 512) (c : Fin 2048) : EReal :=
  Ideal.div (∑ j : Fin 49, a (ix3 n j c)) d49

def poolFlat (a : SA.Idx → EReal) : SP.Idx → EReal :=
  fun i => poolFlatAt a ⟨(i 0).val, idx2_lt0 i⟩ ⟨(i 1).val, idx2_lt1 i⟩

/-- Stage two: a matrix p : [512, 2048] against the weight, plus the one-row bias. -/
def fcOfAt (p : SP.Idx → EReal) (w : SW.Idx → EReal) (b2 : SB2.Idx → EReal) (n : Fin 512) (k : Fin 8192) : EReal :=
  (∑ c : Fin 2048, p (ix2 n c) * w (ix2 c k)) + b2 (ix2 (0 : Fin 1) k)

def fcOf (p : SP.Idx → EReal) (w : SW.Idx → EReal) (b2 : SB2.Idx → EReal) : SY.Idx → EReal :=
  fun i => fcOfAt p w b2 ⟨(i 0).val, idx2_lt0 i⟩ ⟨(i 1).val, idx2_lt1 i⟩

/-- If a is the row-major reshape of x, the mean along a's middle axis is the mean over x's 7 × 7 window. -/
theorem poolFlatAt_eq (x : SX.Idx → EReal) (a : SA.Idx → EReal)
    (ha : ∀ (n : Fin 512) (j : Fin 49) (c : Fin 2048),
      a (ix3 n j c) = x (ix4 n ⟨j.val / 7, by have := j.isLt; omega⟩ ⟨j.val % 7, by omega⟩ c))
    (n : Fin 512) (c : Fin 2048) : poolFlatAt a n c = pooledAt x n c := by
  unfold poolFlatAt pooledAt
  refine congrArg (fun s => Ideal.div s d49) ?_
  rw [← sum_flat49 (fun h v => x (ix4 n h v c))]
  exact Finset.sum_congr rfl fun j _ => ha n j c

/-- The two stages composed are the specification, when a reshapes x and b2 is b as one row. -/
theorem fcOf_poolFlat (x : SX.Idx → EReal) (w : SW.Idx → EReal) (b : SB.Idx → EReal) (a : SA.Idx → EReal)
    (b2 : SB2.Idx → EReal)
    (ha : ∀ (n : Fin 512) (j : Fin 49) (c : Fin 2048),
      a (ix3 n j c) = x (ix4 n ⟨j.val / 7, by have := j.isLt; omega⟩ ⟨j.val % 7, by omega⟩ c))
    (hb : ∀ k : Fin 8192, b2 (ix2 (0 : Fin 1) k) = b (ix1 k)) :
    fcOf (poolFlat a) w b2 = fc x w b := by
  funext i
  unfold fcOf fc fcOfAt fcAt
  rw [hb]
  refine congrArg (· + b (ix1 _)) (Finset.sum_congr rfl fun c _ => ?_)
  refine congrArg (· * w (ix2 c _)) ?_
  exact poolFlatAt_eq x a ha _ c

/-! ## The two reshapes at an index -/

/-- The reshape [512, 7, 7, 2048] → [512, 49, 2048] keeps row-major order: position (n, j, c) holds (n, j / 7, j % 7, c). -/
theorem reshape_x_apply (x : SX.Idx → EReal) (h : SX.ShapeCasts SA) (n : Fin 512) (j : Fin 49) (c : Fin 2048) :
    shapeCast SA x h (ix3 n j c) = x (ix4 n ⟨j.val / 7, by have := j.isLt; omega⟩ ⟨j.val % 7, by omega⟩ c) := by
  refine shapeCast_apply x h _ _ ?_
  rw [Shape.rowMajor_val_four, Shape.rowMajor_val_three]
  show ((n.val * 7 + j.val / 7) * 7 + j.val % 7) * 2048 + c.val = (n.val * 49 + j.val) * 2048 + c.val
  omega

/-- The reshape [8192] → [1, 8192] puts entry k at (0, k). -/
theorem reshape_b_apply (b : SB.Idx → EReal) (h : SB.ShapeCasts SB2) (k : Fin 8192) :
    shapeCast SB2 b h (ix2 (0 : Fin 1) k) = b (ix1 k) := by
  refine shapeCast_apply b h _ _ ?_
  rw [Shape.rowMajor_val_one, Shape.rowMajor_val_two]
  show k.val = 0 * 8192 + k.val
  omega

end Cert.PoolFC

end
-- ==== Proof.PoolBody.lean ====
/-
  The two kernel bodies as arithmetic, read at one element, at the ideal instance.

  Pooling body, on a block v : [32, 49, 2048]: element (p, q) of what it stores is (Σ_{j < 49} v[p, j, q]) / 49
  (a sum along the block's middle axis, then a division by the splat of 49.0).
  Product body, on blocks v : [128, 2048], u : [2048, 1024], r : [1, 1024]: element (p, q) of what it stores is
  Σ_{c < 2048} v[p, c] · u[c, q] + r[0, q]. The two narrowings to bf16 in front of the product are the identity on
  extended reals, and the product accumulates into a zero block, so only the contraction sum is left.
-/
import proofs.«155156_j33921651704511_1_alg».proof.Proof.Gen.KernelIdeal.Skeleton
import proofs.«155156_j33921651704511_1_alg».proof.Proof.PoolSpec
import Idealize.ShloMosaic.PureOps.Ideal.Laws
import Idealize.ShloMosaic.Lib.ValueIdx
import Idealize.ShloMosaic.Lib.Pipeline.Value

noncomputable section

open scoped BigOperators

namespace Cert.PoolFC.Body

open Cert.KernelIdeal Cert.KernelIdeal.Gen Idealize.ShloMosaic Idealize.ShloMosaic.ValueIdx Cert.PoolFC

/-- A sum along the middle axis of a [32, 49, 2048] block, at (p, q): the 49 entries (p, j, q). -/
theorem laneSum_at (v : FVec Ideal S32x49x2048 .f32) (h : S32x49x2048.Reduces [1] S32x2048) (hφ : FKind.Formats .f32)
    (hacc : (0x00000000#32 : BitVec 32) = FKind.add.neutral .f32 hφ) (p : Fin 32) (q : Fin 2048) :
    multiReduction (F := Ideal) .add [1] S32x2048 v 0x00000000#32 h hφ hacc (ix2 p q) = ∑ j : Fin 49, v (ix3 p j q) := by
  refine (Ideal.multiReduction_add_single v 0x00000000#32 h hφ hacc (ix2 p q)).trans ?_
  refine Finset.sum_congr rfl fun j _ => congrArg v ?_
  funext a; apply Fin.ext
  match a with
  | ⟨0, _⟩ => rfl
  | ⟨1, _⟩ => rfl
  | ⟨2, _⟩ => rfl

/-- The pooling body's stored value at (p, q). -/
theorem pool_pay_at (v : Vec Ideal S32x49x2048 .f32) (p : Fin 32) (q : Fin 2048) :
    k0_pay1 (F := Ideal) v (ix2 p q) = Ideal.div (∑ j : Fin 49, v (ix3 p j q)) d49 := by
  unfold k0_pay1
  dsimp only
  rw [shapeCast_self]
  show Ideal.div (multiReduction (F := Ideal) .add [1] S32x2048 v 0x00000000#32 _ _ _ (ix2 p q)) d49 = _
  exact congrArg (fun s => Ideal.div s d49) (laneSum_at v _ _ _ p q)

/-- The same at any index of the stored block. -/
theorem pool_pay_idx (v : Vec Ideal S32x49x2048 .f32) (y : S32x2048.Idx) :
    k0_pay1 (F := Ideal) v y
      = Ideal.div (∑ j : Fin 49, v (ix3 (⟨(y 0).val, idx2_lt0 y⟩ : Fin 32) j (⟨(y 1).val, idx2_lt1 y⟩ : Fin 2048))) d49 := by
  obtain ⟨p, q, rfl⟩ : ∃ (p : Fin 32) (q : Fin 2048), y = ix2 p q := ⟨y 0, y 1, eq_ix2 y⟩
  exact pool_pay_at v p q

/-! ## The product body -/

abbrev D := dot_S128x2048_S2048x1024_S128x1024_1_0_0_1_n_n

theorem lhs_D_0 (i : S128x1024.Idx) (q : dot_S128x2048_S2048x1024_S128x1024_1_0_0_1_n_n.contr.Idx) :
    (dot_S128x2048_S2048x1024_S128x1024_1_0_0_1_n_n.lhsIdx i q 0).val = (i 0).val := by
  unfold DotDims.lhsIdx
  rw [dif_neg (show ¬(0 : Fin S128x2048.rank) ∈ dot_S128x2048_S2048x1024_S128x1024_1_0_0_1_n_n.lhsBatch by decide), dif_pos (show (0 : Fin S128x2048.rank) ∈ dot_S128x2048_S2048x1024_S128x1024_1_0_0_1_n_n.lhsNonContracting by decide)]
  rfl
theorem lhs_D_1 (i : S128x1024.Idx) (q : dot_S128x2048_S2048x1024_S128x1024_1_0_0_1_n_n.contr.Idx) :
    (dot_S128x2048_S2048x1024_S128x1024_1_0_0_1_n_n.lhsIdx i q 1).val = (q ⟨0, by decide⟩).val :=
  dot_S128x2048_S2048x1024_S128x1024_1_0_0_1_n_n.lhsIdx_val_of_single rfl i q
theorem rhs_D_0 (i : S128x1024.Idx) (q : dot_S128x2048_S2048x1024_S128x1024_1_0_0_1_n_n.contr.Idx) :
    (dot_S128x2048_S2048x1024_S128x1024_1_0_0_1_n_n.rhsIdx i q 0).val = (q ⟨0, by decide⟩).val :=
  dot_S128x2048_S2048x1024_S128x1024_1_0_0_1_n_n.rhsIdx_val_of_single rfl i q
theorem rhs_D_1 (i : S128x1024.Idx) (q : dot_S128x2048_S2048x1024_S128x1024_1_0_0_1_n_n.contr.Idx) :
    (dot_S128x2048_S2048x1024_S128x1024_1_0_0_1_n_n.rhsIdx i q 1).val = (i 1).val := by
  unfold DotDims.rhsIdx
  rw [dif_neg (show ¬(1 : Fin S2048x1024.rank) ∈ dot_S128x2048_S2048x1024_S128x1024_1_0_0_1_n_n.rhsBatch by decide), dif_pos (show (1 : Fin S2048x1024.rank) ∈ dot_S128x2048_S2048x1024_S128x1024_1_0_0_1_n_n.rhsNonContracting by decide)]
  rfl

/-- The block product into the zero block, at (p, q): the contraction over the 2048 shared positions. -/
theorem blockDot_at (l : FVec Ideal S128x2048 .bf16) (r : FVec Ideal S2048x1024 .bf16) (p : Fin 128) (q : Fin 1024) :
    matmul (F := Ideal) dot_S128x2048_S2048x1024_S128x1024_1_0_0_1_n_n none l r (constant S128x1024 .f32 0x00000000#32) (ix2 p q)
      = ∑ c : Fin 2048, l (ix2 p c) * r (ix2 c q) := by
  simp only [matmul]
  rw [Ideal.matmul_constant_zero_apply, ← Equiv.sum_comp (ValueIdx.contrEquiv1 dot_S128x2048_S2048x1024_S128x1024_1_0_0_1_n_n 2048 rfl rfl).symm]
  refine Finset.sum_congr rfl fun k _ => ?_
  have hk := ValueIdx.contrEquiv1_symm_val dot_S128x2048_S2048x1024_S128x1024_1_0_0_1_n_n 2048 rfl rfl k
  have el : dot_S128x2048_S2048x1024_S128x1024_1_0_0_1_n_n.lhsIdx (ix2 p q) ((ValueIdx.contrEquiv1 dot_S128x2048_S2048x1024_S128x1024_1_0_0_1_n_n 2048 rfl rfl).symm k) = ix2 p k := funext fun a => Fin.ext (by
    match a with
    | ⟨0, _⟩ => exact lhs_D_0 _ _
    | ⟨1, _⟩ => exact (lhs_D_1 _ _).trans hk)
  have er : dot_S128x2048_S2048x1024_S128x1024_1_0_0_1_n_n.rhsIdx (ix2 p q) ((ValueIdx.contrEquiv1 dot_S128x2048_S2048x1024_S128x1024_1_0_0_1_n_n 2048 rfl rfl).symm k) = ix2 k q := funext fun a => Fin.ext (by
    match a with
    | ⟨0, _⟩ => exact (rhs_D_0 _ _).trans hk
    | ⟨1, _⟩ => exact rhs_D_1 _ _)
  rw [el, er]

/-- The row block broadcast down the 128 rows, at (p, q): the row's entry q. -/
theorem rowBroadcast_at (r : FVec Ideal S1x1024 .f32) (h : S1x1024.Broadcasts S128x1024) (p : Fin 128) (q : Fin 1024) :
    broadcastTo S128x1024 r h (ix2 p q) = r (ix2 (0 : Fin 1) q) := by
  refine broadcastTo_apply r h (ix2 p q) (ix2 (0 : Fin 1) q) fun a => ?_
  match a with
  | ⟨0, _⟩ => rfl
  | ⟨1, _⟩ => rfl

/-- The product body's stored value at (p, q). -/
theorem fc_pay_at (v : Vec Ideal S128x2048 .f32) (u : Vec Ideal S2048x1024 .f32) (r : Vec Ideal S1x1024 .f32)
    (p : Fin 128) (q : Fin 1024) :
    k1_pay1 (F := Ideal) v u r (ix2 p q) = (∑ c : Fin 2048, v (ix2 p c) * u (ix2 c q)) + r (ix2 (0 : Fin 1) q) := by
  unfold k1_pay1
  rw [shapeCast_self, shapeCast_self]
  show matmul (F := Ideal) dot_S128x2048_S2048x1024_S128x1024_1_0_0_1_n_n none (truncf .bf16 v _) (truncf .bf16 u _)
      (constant S128x1024 .f32 0x00000000#32) (ix2 p q) + broadcastTo S128x1024 r _ (ix2 p q) = _
  rw [blockDot_at, rowBroadcast_at]
  rfl

/-- The same at any index of the stored block. -/
theorem fc_pay_idx (v : Vec Ideal S128x2048 .f32) (u : Vec Ideal S2048x1024 .f32) (r : Vec Ideal S1x1024 .f32)
    (y : S128x1024.Idx) :
    k1_pay1 (F := Ideal) v u r y
      = (∑ c : Fin 2048, v (ix2 (⟨(y 0).val, idx2_lt0 y⟩ : Fin 128) c) * u (ix2 c (⟨(y 1).val, idx2_lt1 y⟩ : Fin 1024)))
        + r (ix2 (0 : Fin 1) (⟨(y 1).val, idx2_lt1 y⟩ : Fin 1024)) := by
  obtain ⟨p, q, rfl⟩ : ∃ (p : Fin 128) (q : Fin 1024), y = ix2 p q := ⟨y 0, y 1, eq_ix2 y⟩
  exact fc_pay_at v u r p q

end Cert.PoolFC.Body

end
-- ==== Proof.PoolRegion.lean ====
/-
  Region 0 (the pooling call) as one whole-array function: whatever the reshaped input a : [512, 49, 2048] holds when
  the region is entered, the pooled matrix [512, 2048] ends holding, at (n, c), (Σ_{j < 49} a[n, j, c]) / 49.

  Grid point t (of 16) reads rows 32 t … 32 t + 31 of a and writes the same rows of the result, so the blocks written
  tile the result: row n is written by point n / 32.
-/
import proofs.«155156_j33921651704511_1_alg».proof.Proof.Gen.KernelIdeal.Frame
import proofs.«155156_j33921651704511_1_alg».proof.Proof.PoolBody
import Idealize.ShloMosaic.Lib.Pipeline.Value

set_option maxRecDepth 16384

noncomputable section

open scoped BigOperators

namespace Cert.PoolFC.Region0

open Cert.KernelIdeal Cert.KernelIdeal.Gen Idealize.ShloMosaic Idealize.ShloMosaic.TcCoe Idealize.SL.Sem
open Idealize.ShloMosaic.ValueIdx Cert.PoolFC
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The reshaped input as the region finds it. -/
abbrev xarr (c : Dev nD) : SA.Idx → EReal := V c main_v0

/-- The printed index maps over the grid: point t reads and writes block row t, at block column 0. -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- What point t writes back is block t of the pooled matrix of the region's input. -/
theorem flushed_eq (c : Dev nD) (t : Fin cfg0.N) :
    (dat0 V c).flushed 1 t = ((cfg0.win 1).blk t).view.read (Elt Ideal) (poolFlat (xarr V c)) := by
  show (cfg0.win 1).cut (grid0.coords t) ((dat0 V c).after 1 t) = _
  rw [after0_1]
  unfold out0_1
  rw [View.canon_unit_zero hz2]
  simp only [View.ld_unit_zero (S := S32x49x2048) hz3]
  obtain ⟨e0, e1, e2, e3, e4⟩ := idx_facts t
  funext j
  show k0_pay1 (F := Ideal) (iblk0 V c 0 t) j = poolFlat (xarr V c) (((cfg0.win 1).blk t).view.emb j)
  refine (Body.pool_pay_idx (iblk0 V c 0 t) j).trans ?_
  unfold poolFlat poolFlatAt
  refine congrArg (fun s => Ideal.div s d49) (Finset.sum_congr rfl fun jj _ => ?_)
  show V c main_v0 (((cfg0.win 0).blk t).view.emb (ix3 (⟨(j 0).val, idx2_lt0 j⟩ : Fin 32) jj (⟨(j 1).val, idx2_lt1 j⟩ : Fin 2048))) = V c main_v0 _
  refine congrArg (V c main_v0) ?_
  funext a; apply Fin.ext
  match a with
  | ⟨0, _⟩ =>
    show win0_0.index t (0 : Fin 3) * 32 + 1 * (j 0).val = win0_1.index t (0 : Fin 2) * 32 + 1 * (j 0).val
    omega
  | ⟨1, _⟩ =>
    show win0_0.index t (1 : Fin 3) * 49 + 1 * jj.val = jj.val
    omega
  | ⟨2, _⟩ =>
    show win0_0.index t (2 : Fin 3) * 2048 + 1 * (j 1).val = win0_1.index t (1 : Fin 2) * 2048 + 1 * (j 1).val
    omega

/-- An index of the pooled matrix is in point t's block iff each coordinate is in the block's range on its axis. -/
theorem mem_blk (t : Fin cfg0.N) (i : S512x2048.Idx) :
    i ∈ ((cfg0.win 1).blk t).view.set ↔ ∀ a : Fin 2, win0_1.index t a * S32x2048.size a ≤ (i a).val ∧ (i a).val < win0_1.index t a * S32x2048.size a + S32x2048.size a := by
  show i ∈ ((View.whole main_v1).slice (win0_1.rect t)).set ↔ _
  rw [View.set_slice_whole, Rect.mem_set_unit]
  exact Iff.rfl

/-- Every index of the pooled matrix is written: row n by point n / 32. -/
theorem cover (i : S512x2048.Idx) :
    ∃ t : Fin cfg0.N, (cfg0.win 1).flush t = true ∧ i ∈ ((cfg0.win 1).blk t).view.set := by
  have hi0 : (i 0).val < 512 := (i 0).isLt
  have hi1 : (i 1).val < 2048 := (i 1).isLt
  have hN : (i 0).val / 32 < cfg0.N := by
    show (i 0).val / 32 < grid0.N
    rw [N_0]; omega
  obtain ⟨-, -, -, e3, e4⟩ := idx_facts ⟨(i 0).val / 32, hN⟩
  refine ⟨⟨(i 0).val / 32, hN⟩, flush0_1 _, ?_⟩
  rw [mem_blk]
  intro a
  match a with
  | ⟨0, _⟩ =>
    show win0_1.index ⟨(i 0).val / 32, hN⟩ (0 : Fin 2) * 32 ≤ (i 0).val ∧ (i 0).val < win0_1.index ⟨(i 0).val / 32, hN⟩ (0 : Fin 2) * 32 + 32
    rw [e3]
    show (i 0).val / 32 * 32 ≤ (i 0).val ∧ (i 0).val < (i 0).val / 32 * 32 + 32
    omega
  | ⟨1, _⟩ =>
    show win0_1.index ⟨(i 0).val / 32, hN⟩ (1 : Fin 2) * 2048 ≤ (i 1).val ∧ (i 1).val < win0_1.index ⟨(i 0).val / 32, hN⟩ (1 : Fin 2) * 2048 + 2048
    rw [e4]
    omega

/-- The pooled matrix after region 0. -/
theorem final (c : Dev nD) : (dat0 V c).arrAt 1 cfg0.N = poolFlat (xarr V c) :=
  (dat0 V c).arrAt_eq_of_cover 1 (poolFlat (xarr V c)) (fun t _ => flushed_eq V c t) cover

end Cert.PoolFC.Region0

end
-- ==== Proof.FcRegion.lean ====
/-
  Region 1 (the product call) as one whole-array function: whatever the pooled matrix p : [512, 2048], the weight
  w : [2048, 8192] and the one-row bias r : [1, 8192] hold when the region is entered, the result [512, 8192] ends
  holding, at (n, k), Σ_{c < 2048} p[n, c] · w[c, k] + r[0, k].

  The grid is 8 × 4, the column blocks outermost: point t has column block t / 4 (1024 columns of w, r and the result)
  and row block t % 4 (128 rows of p and the result), and reads p's and w's whole shared axis. The 32 blocks written
  tile the result: entry (n, k) is written by point 4 (k / 1024) + n / 128.
-/
import proofs.«155156_j33921651704511_1_alg».proof.Proof.Gen.KernelIdeal.Frame
import proofs.«155156_j33921651704511_1_alg».proof.Proof.PoolBody
import Idealize.ShloMosaic.Lib.Pipeline.Value

set_option maxRecDepth 16384

noncomputable section

open scoped BigOperators

namespace Cert.PoolFC.Region1

open Cert.KernelIdeal Cert.KernelIdeal.Gen Idealize.ShloMosaic Idealize.ShloMosaic.TcCoe Idealize.SL.Sem
open Idealize.ShloMosaic.ValueIdx Cert.PoolFC
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The pooled matrix, the weight and the one-row bias as the region finds them. -/
abbrev parr (c : Dev nD) : SP.Idx → EReal := V c main_v1
abbrev warr (c : Dev nD) : SW.Idx → EReal := V c main_arg1
abbrev rarr (c : Dev nD) : SB2.Idx → EReal := V c main_v2

/-- The printed index maps over the grid: point t has row block t % 4 and column block t / 4. -/
theorem idx_facts : ∀ t : Fin cfg1.N, win1_0.index t (0 : Fin 2) = t.val % 4 ∧ win1_0.index t (1 : Fin 2) = 0
    ∧ win1_1.index t (0 : Fin 2) = 0 ∧ win1_1.index t (1 : Fin 2) = t.val / 4
    ∧ win1_2.index t (0 : Fin 2) = 0 ∧ win1_2.index t (1 : Fin 2) = t.val / 4
    ∧ win1_3.index t (0 : Fin 2) = t.val % 4 ∧ win1_3.index t (1 : Fin 2) = t.val / 4 :=
  (by decide +kernel : ∀ t : Fin grid1.N, _)

/-- What point t writes back is block t of the product-plus-bias of the region's three inputs. -/
theorem flushed_eq (c : Dev nD) (t : Fin cfg1.N) :
    (dat1 V c).flushed 3 t
      = ((cfg1.win 3).blk t).view.read (Elt Ideal) (fcOf (parr V c) (warr V c) (rarr V c)) := by
  show (cfg1.win 3).cut (grid1.coords t) ((dat1 V c).after 3 t) = _
  rw [after1_3]
  unfold out1_3
  rw [View.canon_unit_zero hz2]
  simp only [View.ld_unit_zero (S := S128x2048) hz2, View.ld_unit_zero (S := S2048x1024) hz2, View.ld_unit_zero (S := S1x1024) hz2]
  obtain ⟨e0, e1, e2, e3, e4, e5, e6, e7⟩ := idx_facts t
  funext j
  show k1_pay1 (F := Ideal) (iblk1 V c 0 t) (iblk1 V c 1 t) (iblk1 V c 2 t) j
    = fcOf (parr V c) (warr V c) (rarr V c) (((cfg1.win 3).blk t).view.emb j)
  refine (Body.fc_pay_idx (iblk1 V c 0 t) (iblk1 V c 1 t) (iblk1 V c 2 t) j).trans ?_
  unfold fcOf fcOfAt
  have hb : ((cfg1.win 2).blk t).view.emb (ix2 (0 : Fin 1) (⟨(j 1).val, idx2_lt1 j⟩ : Fin 1024))
      = ix2 (0 : Fin 1) (⟨((((cfg1.win 3).blk t).view.emb j) 1).val, idx2_lt1 _⟩ : Fin 8192) := by
    funext a; apply Fin.ext
    match a with
    | ⟨0, _⟩ =>
      show win1_2.index t (0 : Fin 2) * 1 + 1 * 0 = 0
      omega
    | ⟨1, _⟩ =>
      show win1_2.index t (1 : Fin 2) * 1024 + 1 * (j 1).val = win1_3.index t (1 : Fin 2) * 1024 + 1 * (j 1).val
      omega
  have hl : ∀ cc : Fin 2048, ((cfg1.win 0).blk t).view.emb (ix2 (⟨(j 0).val, idx2_lt0 j⟩ : Fin 128) cc)
      = ix2 (⟨((((cfg1.win 3).blk t).view.emb j) 0).val, idx2_lt0 _⟩ : Fin 512) cc := by
    intro cc
    funext a; apply Fin.ext
    match a with
    | ⟨0, _⟩ =>
      show win1_0.index t (0 : Fin 2) * 128 + 1 * (j 0).val = win1_3.index t (0 : Fin 2) * 128 + 1 * (j 0).val
      omega
    | ⟨1, _⟩ =>
      show win1_0.index t (1 : Fin 2) * 2048 + 1 * cc.val = cc.val
      omega
  have hr : ∀ cc : Fin 2048, ((cfg1.win 1).blk t).view.emb (ix2 cc (⟨(j 1).val, idx2_lt1 j⟩ : Fin 1024))
      = ix2 cc (⟨((((cfg1.win 3).blk t).view.emb j) 1).val, idx2_lt1 _⟩ : Fin 8192) := by
    intro cc
    funext a; apply Fin.ext
    match a with
    | ⟨0, _⟩ =>
      show win1_1.index t (0 : Fin 2) * 2048 + 1 * cc.val = cc.val
      omega
    | ⟨1, _⟩ =>
      show win1_1.index t (1 : Fin 2) * 1024 + 1 * (j 1).val = win1_3.index t (1 : Fin 2) * 1024 + 1 * (j 1).val
      omega
  show (∑ cc : Fin 2048, parr V c (((cfg1.win 0).blk t).view.emb (ix2 (⟨(j 0).val, idx2_lt0 j⟩ : Fin 128) cc))
        * warr V c (((cfg1.win 1).blk t).view.emb (ix2 cc (⟨(j 1).val, idx2_lt1 j⟩ : Fin 1024))))
      + rarr V c (((cfg1.win 2).blk t).view.emb (ix2 (0 : Fin 1) (⟨(j 1).val, idx2_lt1 j⟩ : Fin 1024))) = _
  rw [hb]
  refine congrArg (· + rarr V c _) (Finset.sum_congr rfl fun cc _ => ?_)
  rw [hl cc, hr cc]

/-- An index of the result is in point t's block iff each coordinate is in the block's range on its axis. -/
theorem mem_blk (t : Fin cfg1.N) (i : S512x8192.Idx) :
    i ∈ ((cfg1.win 3).blk t).view.set ↔ ∀ a : Fin 2, win1_3.index t a * S128x1024.size a ≤ (i a).val ∧ (i a).val < win1_3.index t a * S128x1024.size a + S128x1024.size a := by
  show i ∈ ((View.whole main_v3).slice (win1_3.rect t)).set ↔ _
  rw [View.set_slice_whole, Rect.mem_set_unit]
  exact Iff.rfl

/-- Every index of the result is written: entry (n, k) by point 4 (k / 1024) + n / 128. -/
theorem cover (i : S512x8192.Idx) :
    ∃ t : Fin cfg1.N, (cfg1.win 3).flush t = true ∧ i ∈ ((cfg1.win 3).blk t).view.set := by
  have hi0 : (i 0).val < 512 := (i 0).isLt
  have hi1 : (i 1).val < 8192 := (i 1).isLt
  have hN : 4 * ((i 1).val / 1024) + (i 0).val / 128 < cfg1.N := by
    show 4 * ((i 1).val / 1024) + (i 0).val / 128 < grid1.N
    rw [N_1]; omega
  obtain ⟨-, -, -, -, -, -, e6, e7⟩ := idx_facts ⟨4 * ((i 1).val / 1024) + (i 0).val / 128, hN⟩
  refine ⟨⟨4 * ((i 1).val / 1024) + (i 0).val / 128, hN⟩, flush1_3 _, ?_⟩
  rw [mem_blk]
  intro a
  match a with
  | ⟨0, _⟩ =>
    show win1_3.index ⟨4 * ((i 1).val / 1024) + (i 0).val / 128, hN⟩ (0 : Fin 2) * 128 ≤ (i 0).val
      ∧ (i 0).val < win1_3.index ⟨4 * ((i 1).val / 1024) + (i 0).val / 128, hN⟩ (0 : Fin 2) * 128 + 128
    rw [e6]
    show (4 * ((i 1).val / 1024) + (i 0).val / 128) % 4 * 128 ≤ (i 0).val
      ∧ (i 0).val < (4 * ((i 1).val / 1024) + (i 0).val / 128) % 4 * 128 + 128
    omega
  | ⟨1, _⟩ =>
    show win1_3.index ⟨4 * ((i 1).val / 1024) + (i 0).val / 128, hN⟩ (1 : Fin 2) * 1024 ≤ (i 1).val
      ∧ (i 1).val < win1_3.index ⟨4 * ((i 1).val / 1024) + (i 0).val / 128, hN⟩ (1 : Fin 2) * 1024 + 1024
    rw [e7]
    show (4 * ((i 1).val / 1024) + (i 0).val / 128) / 4 * 1024 ≤ (i 1).val
      ∧ (i 1).val < (4 * ((i 1).val / 1024) + (i 0).val / 128) / 4 * 1024 + 1024
    omega

/-- The result after region 1. -/
theorem final (c : Dev nD) : (dat1 V c).arrAt 3 cfg1.N = fcOf (parr V c) (warr V c) (rarr V c) :=
  (dat1 V c).arrAt_eq_of_cover 3 (fcOf (parr V c) (warr V c) (rarr V c)) (fun t _ => flushed_eq V c t) cover

end Cert.PoolFC.Region1

end
-- ==== Proof.KernelValue.lean ====
/-
  The kernel's result as a function of its three arguments: the contents of the result buffer at the last segment
  boundary, walked back through @main.

  @main is: reshape x to a : [512, 49, 2048]; region 0 pools a into p : [512, 2048]; reshape b to r : [1, 8192];
  region 1 writes p · w + r. So the result is the two-stage function of the specification module at a = reshape x and
  r = reshape b, which is the specification itself.
-/
import proofs.«155156_j33921651704511_1_alg».proof.Proof.Gen.KernelIdeal.Frame
import proofs.«155156_j33921651704511_1_alg».proof.Proof.PoolRegion
import proofs.«155156_j33921651704511_1_alg».proof.Proof.FcRegion
import Idealize.ShloMosaic.Lib.StableHlo.Run

set_option maxRecDepth 16384

noncomputable section

namespace Cert.PoolFC.Fold

open Cert.KernelIdeal Cert.KernelIdeal.Gen Idealize.ShloMosaic Idealize.ShloMosaic.TcCoe Idealize.SL.Sem
open Idealize.ShloMosaic.StableHlo Idealize.ShloMosaic.ValueIdx Cert.PoolFC

variable (m : (ℓ : Loc nD τ sig) → Buf (Elt Ideal) ℓ) (ρ : Dev nD → PrngReg)

/-- Region 0 is entered with the reshape of the launched x in its input array. -/
theorem V1_v0 (c : Dev nD) :
    V1 m ρ c main_v0 = shapeCast S512x49x2048 (m ((c : Thread nD τ).loc main_arg0)) shapeCasts_S512x7x7x2048_S512x49x2048 := by
  show StableHlo.after hostOps0 (W0 m ρ c) (Proc.devRef .tc main_v0) = _
  after_results
  rfl

/-- Region 1 is entered with region 0's output in its first input array: the reshape of the bias in between leaves it. -/
theorem V3_v1 (c : Dev nD) : V3 m ρ c main_v1 = (dat0 (V1 m ρ) c).arrAt 1 cfg0.N := by
  have e : StableHlo.after hostOps1 (W2 m ρ c) (Proc.devRef .tc main_v1) = W2 m ρ c (Proc.devRef .tc main_v1) := by
    after_results
  exact e.trans (W2_arr m ρ c 1)

/-- Region 1 is entered with the launched weight in its second input array. -/
theorem V3_arg1 (c : Dev nD) : V3 m ρ c main_arg1 = m ((c : Thread nD τ).loc main_arg1) :=
  ((W4_arr m ρ c 1).trans (((dat1 (V3 m ρ) c).arrAt_in 1 rfl _).trans (A_eq1 (V3 m ρ) c 1))).symm.trans (W4_main_arg1 m ρ c)

/-- The bias is as launched when region 0 is left. -/
theorem W2_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results

/-- Region 1 is entered with the reshape of the launched bias in its third input array. -/
theorem V3_v2 (c : Dev nD) :
    V3 m ρ c main_v2 = shapeCast S1x8192 (m ((c : Thread nD τ).loc main_arg2)) shapeCasts_S8192_S1x8192 := by
  show StableHlo.after hostOps1 (W2 m ρ c) (Proc.devRef .tc main_v2) = _
  after_results
  rw [W2_arg2]
  rfl

/-- THE RESULT: the contents of the result buffer at the last boundary are the specification of the launched arguments. -/
theorem result_eq (c : Dev nD) :
    W4 m ρ c (Proc.devRef .tc main_v3)
      = fc (m ((c : Thread nD τ).loc main_arg0)) (m ((c : Thread nD τ).loc main_arg1)) (m ((c : Thread nD τ).loc main_arg2)) := by
  have h1 : (V3 m ρ c main_v1 : SP.Idx → EReal) = poolFlat (V1 m ρ c main_v0) :=
    (V3_v1 m ρ c).trans (Region0.final (V1 m ρ) c)
  have h2 : (V3 m ρ c main_arg1 : SW.Idx → EReal) = m ((c : Thread nD τ).loc main_arg1) := V3_arg1 m ρ c
  have ha : ∀ (n : Fin 512) (j : Fin 49) (c' : Fin 2048),
      (V1 m ρ c main_v0 : SA.Idx → EReal) (ix3 n j c')
        = (m ((c : Thread nD τ).loc main_arg0) : SX.Idx → EReal) (ix4 n ⟨j.val / 7, by have := j.isLt; omega⟩ ⟨j.val % 7, by omega⟩ c') := by
    intro n j c'
    rw [V1_v0]
    exact reshape_x_apply _ _ n j c'
  have hb : ∀ k : Fin 8192, (V3 m ρ c main_v2 : SB2.Idx → EReal) (ix2 (0 : Fin 1) k)
      = (m ((c : Thread nD τ).loc main_arg2) : SB.Idx → EReal) (ix1 k) := by
    intro k
    rw [V3_v2]
    exact reshape_b_apply _ _ k
  calc W4 m ρ c (Proc.devRef .tc main_v3)
      = (dat1 (V3 m ρ) c).arrAt 3 cfg1.N := W4_arr m ρ c 3
    _ = fcOf (V3 m ρ c main_v1) (V3 m ρ c main_arg1) (V3 m ρ c main_v2) := Region1.final (V3 m ρ) c
    _ = fcOf (poolFlat (V1 m ρ c main_v0)) (m ((c : Thread nD τ).loc main_arg1)) (V3 m ρ c main_v2) := by rw [h1, h2]
    _ = fc (m ((c : Thread nD τ).loc main_arg0)) (m ((c : Thread nD τ).loc main_arg1)) (m ((c : Thread nD τ).loc main_arg2)) :=
        fcOf_poolFlat _ _ _ _ _ ha hb

end Cert.PoolFC.Fold

end
-- ==== Proof.RefValue.lean ====
/-
  The reference computes the specification: its last stage, read at an index (n, k), is
      Σ_c ((0 + Σ_{h, v} x[n, h, v, c]) / 49) · w[c, k] + b[k].
  The one stage the generated read-at-an-index lemmas leave out is the sum over the two window axes at once: the host
  sums, for the result index (n, c), the entries of x whose index drops to (n, c) when the window axes are removed; those
  are exactly the 49 entries (n, h, v, c), one for each pair (h, v).
-/
import proofs.«155156_j33921651704511_1_alg».proof.Proof.Gen.ReferenceIdeal.Read
import proofs.«155156_j33921651704511_1_alg».proof.Proof.PoolSpec
import Idealize.ShloMosaic.PureOps.Reduce

noncomputable section

open scoped BigOperators

namespace Cert.PoolFC.Ref

open Cert.ReferenceIdeal Cert.ReferenceIdeal.Read Idealize.ShloMosaic Idealize.ShloMosaic.ValueIdx Cert.PoolFC

/-- The entries of x : [512, 7, 7, 2048] that reduce to (n, c) over the axes 1 and 2 are x[n, h, v, c], (h, v) ∈ 7 × 7. -/
theorem sum_window (h : SX.ReducesTo [1, 2] SP) (x : SX.Idx → EReal) (n : Fin 512) (c : Fin 2048) :
    ∑ i ∈ Finset.univ.filter (fun i => h.drop i = ix2 n c), x i = ∑ p : Fin 7 × Fin 7, x (ix4 n p.1 p.2 c) := by
  have hd0 : ∀ i : SX.Idx, (h.drop i 0 : Nat) = (i 0).val := fun i => h.drop_apply_val_of_eq i 0 0
  have hd1 : ∀ i : SX.Idx, (h.drop i 1 : Nat) = (i 3).val := fun i => h.drop_apply_val_of_eq i 1 3
  have hback : ∀ i ∈ Finset.univ.filter (fun i => h.drop i = ix2 n c),
      ix4 n (⟨(i 1).val, (i 1).isLt⟩ : Fin 7) (⟨(i 2).val, (i 2).isLt⟩ : Fin 7) c = i := by
    intro i hi
    have e := (Finset.mem_filter.mp hi).2
    have e0 : (i 0).val = n.val := by rw [← hd0 i, e]
    have e1 : (i 3).val = c.val := by rw [← hd1 i, e]
    funext a; apply Fin.ext
    match a with
    | ⟨0, _⟩ => exact e0.symm
    | ⟨1, _⟩ => rfl
    | ⟨2, _⟩ => rfl
    | ⟨3, _⟩ => exact e1.symm
  refine Finset.sum_nbij' (fun i => ((⟨(i 1).val, (i 1).isLt⟩ : Fin 7), (⟨(i 2).val, (i 2).isLt⟩ : Fin 7)))
    (fun p => ix4 n p.1 p.2 c) (fun _ _ => Finset.mem_univ _) ?_ hback (fun _ _ => rfl) ?_
  · intro p _
    refine Finset.mem_filter.mpr ⟨Finset.mem_univ _, ?_⟩
    funext b; apply Fin.ext
    match b with
    | ⟨0, _⟩ => exact hd0 _
    | ⟨1, _⟩ => exact hd1 _
  · intro i hi
    exact congrArg x (hback i hi).symm

/-- The pooled stage of the reference at (n, c). -/
theorem val_main_v2_at (x : (⟨S512x7x7x2048, .f32⟩ : BufTy).Contents (Elt Ideal)) (n : Fin 512) (c : Fin 2048) :
    val_main_v2 (F := Ideal) x (ix2 n c) = pooledAt x n c := by
  rw [val_main_v2_apply, val_main_v1_apply, val_main_cst_0_apply]
  unfold val_main_v0 val_main_cst Host.reduceAdd pooledAt
  show Ideal.div (Ideal.hostReduceAdd _ x (Ideal.ofBits .f32 0x00000000#32) (ix2 n c)) d49 = _
  unfold Ideal.hostReduceAdd
  rw [Ideal.ofBits_zero_f32, zero_add, sum_window]

/-- The reference's result array is the specification of its three arguments. -/
theorem val_main_v6_eq_fc (x : (⟨S512x7x7x2048, .f32⟩ : BufTy).Contents (Elt Ideal))
    (w : (⟨S2048x8192, .f32⟩ : BufTy).Contents (Elt Ideal)) (b : (⟨S8192, .f32⟩ : BufTy).Contents (Elt Ideal)) :
    val_main_v6 (F := Ideal) x w b = fc x w b := by
  funext i
  obtain ⟨n, k, rfl⟩ : ∃ (n : Fin 512) (k : Fin 8192), i = ix2 n k := ⟨i 0, i 1, eq_ix2 i⟩
  have el : ∀ c : Fin 2048, lidx_main_v3 (ix2 n k) c = ix2 n c := fun c =>
    funext fun a => Fin.ext (by match a with | ⟨0, _⟩ => rfl | ⟨1, _⟩ => rfl)
  have er : ∀ c : Fin 2048, ridx_main_v3 (ix2 n k) c = ix2 c k := fun c =>
    funext fun a => Fin.ext (by match a with | ⟨0, _⟩ => rfl | ⟨1, _⟩ => rfl)
  have eb : idx_main_v4 (idx_main_v5 (ix2 n k)) = ix1 k :=
    funext fun a => Fin.ext (by match a with | ⟨0, _⟩ => rfl)
  rw [val_main_v6_apply, val_main_v3_apply, val_main_v5_apply, val_main_v4_apply, eb]
  show (∑ c : Fin 2048, val_main_v2 (F := Ideal) x (lidx_main_v3 (ix2 n k) c) * w (ridx_main_v3 (ix2 n k) c)) + b (ix1 k)
    = (∑ c : Fin 2048, pooledAt x n c * w (ix2 c k)) + b (ix1 k)
  refine congrArg (· + b (ix1 k)) (Finset.sum_congr rfl fun c _ => ?_)
  rw [el, er, val_main_v2_at]

end Cert.PoolFC.Ref

end
-- ==== Proof.lean ====
/-
  The kernel computes a global average pool followed by a linear layer, y = mean_{h, v}(x) · w + b, in two pipelined
  calls: the first sums the 49 window positions of each (n, c) of the reshaped input and divides by 49; the second
  multiplies the pooled [512, 2048] matrix by the [2048, 8192] weight, 128 × 1024 block by block with the whole shared
  axis in every block, and adds the bias row. The reference does the same with one sum over the two window axes, one
  division by the same 49, one contraction and one broadcast sum.

  Over the extended reals both are
      y[n, k] = Σ_{c < 2048} ((Σ_{h, v < 7} x[n, h, v, c]) / 49) · w[c, k] + b[k]:
  the narrowing of the product's operands to bf16 is the identity there, a product into a zero block is its contraction
  sum, and the kernel's sum over 49 flat positions is the reference's sum over 7 × 7 pairs re-indexed by j = 7 h + v.
  Only commutativity and associativity of addition are used, so the precondition (finite inputs) is never opened.

  The frames of the two kernel programs are the generated ones; the reference's frame is its generated run with the
  result dropped; nothing was rewritten by the idealization, so that claim is `True`.
-/
import proofs.«155156_j33921651704511_1_alg».proof.Defs
import proofs.«155156_j33921651704511_1_alg».proof.Proof.Gen.Kernel
import proofs.«155156_j33921651704511_1_alg».proof.Proof.Gen.Kernel.Skeleton
import proofs.«155156_j33921651704511_1_alg».proof.Proof.Gen.Kernel.Launch
import proofs.«155156_j33921651704511_1_alg».proof.Proof.Gen.Kernel.Points
import proofs.«155156_j33921651704511_1_alg».proof.Proof.Gen.Kernel.Frame
import proofs.«155156_j33921651704511_1_alg».proof.Proof.Gen.KernelIdeal
import proofs.«155156_j33921651704511_1_alg».proof.Proof.Gen.KernelIdeal.Skeleton
import proofs.«155156_j33921651704511_1_alg».proof.Proof.Gen.KernelIdeal.Launch
import proofs.«155156_j33921651704511_1_alg».proof.Proof.Gen.KernelIdeal.Points
import proofs.«155156_j33921651704511_1_alg».proof.Proof.Gen.KernelIdeal.Frame
import proofs.«155156_j33921651704511_1_alg».proof.Proof.Gen.ReferenceIdeal
import proofs.«155156_j33921651704511_1_alg».proof.Proof.Gen.Pre_finite_inputs
import proofs.«155156_j33921651704511_1_alg».proof.Proof.Gen.ReferenceIdeal.Run
import proofs.«155156_j33921651704511_1_alg».proof.Proof.Gen.ReferenceIdeal.Read
import proofs.«155156_j33921651704511_1_alg».proof.Proof.KernelRun
import proofs.«155156_j33921651704511_1_alg».proof.Proof.KernelValue
import proofs.«155156_j33921651704511_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result buffer at the specification `Cert.PoolFC.fc` of the arguments: the kernel's by the
    run with its result named and the walk back through @main, the reference's by its generated run and its stages
    read at an index; the arguments agree, so the two results are equal. -/
theorem algebraic : Cert.algebraic_KernelIdeal_ReferenceIdeal := by
  intro m ρ m' ρ' _ hagree
  refine ⟨fun c => Cert.PoolFC.fc (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.PoolFC.Fold.result_eq m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v6_eq, Cert.PoolFC.Ref.val_main_v6_eq_fc, (hagree c).1, (hagree c).2.1,
      (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
